-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S4000x128 : Shape := ⟨2, ![4000, 128]⟩
abbrev S1600000x128 : Shape := ⟨2, ![1600000, 128]⟩
abbrev S1x128 : Shape := ⟨2, ![1, 128]⟩
abbrev S4000x1 : Shape := ⟨2, ![4000, 1]⟩

abbrev nBuf : Space → Nat
  | .hbm => 88
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S100000, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S_, .f32⟩
  | .hbm, ⟨21, _⟩ => ⟨S1600000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000, .f32⟩
  | .hbm, ⟨46, _⟩ => ⟨S_, .f32⟩
  | .hbm, ⟨47, _⟩ => ⟨S100000, .f32⟩
  | .hbm, ⟨48, _⟩ => ⟨S100000, .f32⟩
  | .hbm, ⟨49, _⟩ => ⟨S100000x1, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S1600000x1, .f32⟩
  | .hbm, ⟨61, _⟩ => ⟨S1600000x128, .f32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x128, .f32⟩
  | .hbm, ⟨79, _⟩ => ⟨S1600000x1, .f32⟩
  | .hbm, ⟨80, _⟩ => ⟨S1600000x128, .f32⟩
  | .hbm, ⟨81, _⟩ => ⟨S1600000x128, .f32⟩
  | .hbm, ⟨82, _⟩ => ⟨S_, .f32⟩
  | .hbm, ⟨83, _⟩ => ⟨S100000x128, .f32⟩
  | .hbm, ⟨84, _⟩ => ⟨S1600000x1, .i32⟩
  | .hbm, ⟨85, _⟩ => ⟨S100000x128, .f32⟩
  | .hbm, ⟨86, _⟩ => ⟨S1x128, .f32⟩
  | .hbm, ⟨87, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x1, .f32⟩
  | .local _ .vmem, ⟨10, _⟩ => ⟨S4000x1, .f32⟩
  | .local _ .vmem, ⟨11, _⟩ => ⟨S1x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S128x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x1, .f32⟩
  | .local _ .vmem, ⟨24, _⟩ => ⟨S4000x1, .f32⟩
  | .local _ .vmem, ⟨25, _⟩ => ⟨S1x128, .f32⟩
  | .local _ .vmem, ⟨26, _⟩ => ⟨S4000x128, .f32⟩
  | .local _ .vmem, ⟨27, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_c_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_11 : Ref sig .tc := ⟨.hbm, 70, rfl⟩
abbrev main_v51 : Ref sig .tc := ⟨.hbm, 71, rfl⟩
abbrev main_v52 : Ref sig .tc := ⟨.hbm, 72, rfl⟩
abbrev main_c_12 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_13 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .f32 = 32 ∨ (Rect.block (s := S100000x128) S4000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S100000x1.size a
  hwx3_2 : ∀ i : grid3.Coords, EltTy.bits .f32 = 32 ∨ (Rect.block (s := S100000x1) S4000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x128.size a ≤ S100000x128.size a
  hwx3_4 : ∀ i : grid3.Coords, EltTy.bits .f32 = 32 ∨ (Rect.block (s := S100000x128) S4000x128.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v49) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S4000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v63) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v33) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v64) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v65) S4000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 139
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S1x1600000, .i32⟩
  | 7 => ⟨S1600000, .i32⟩
  | 8 => ⟨S1x1600000, .i32⟩
  | 9 => ⟨S1600000, .i32⟩
  | 10 => ⟨S100000x128, .f32⟩
  | 11 => ⟨S_, .f32⟩
  | 12 => ⟨S100000, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S_, .f32⟩
  | 22 => ⟨S1600000, .f32⟩
  | 23 => ⟨S100000, .f32⟩
  | 24 => ⟨S_, .f32⟩
  | 25 => ⟨S100000, .f32⟩
  | 26 => ⟨S100000, .f32⟩
  | 27 => ⟨S100000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x128, .f32⟩
  | 56 => ⟨S1600000x1, .f32⟩
  | 57 => ⟨S1600000x128, .f32⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S_, .f32⟩
  | 64 => ⟨S100000, .f32⟩
  | 65 => ⟨S100000, .f32⟩
  | 66 => ⟨S100000x1, .f32⟩
  | 67 => ⟨S100000x128, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S100000x128, .f32⟩
  | 77 => ⟨S_, .f32⟩
  | 78 => ⟨S100000, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S_, .f32⟩
  | 88 => ⟨S1600000, .f32⟩
  | 89 => ⟨S100000, .f32⟩
  | 90 => ⟨S_, .f32⟩
  | 91 => ⟨S100000, .f32⟩
  | 92 => ⟨S100000, .f32⟩
  | 93 => ⟨S100000, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000, .f32⟩
  | 112 => ⟨S1600000, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x128, .f32⟩
  | 122 => ⟨S1600000x1, .f32⟩
  | 123 => ⟨S1600000x128, .f32⟩
  | 124 => ⟨S1600000x128, .f32⟩
  | 125 => ⟨S_, .f32⟩
  | 126 => ⟨S100000x128, .f32⟩
  | 127 => ⟨S1600000x1, .i32⟩
  | _ => ⟨S100000x128, .f32⟩

abbrev hbmTy0_1 (i : Nat) : BufTy := match i % 128 with
  | 0 => ⟨S100000x128, .f32⟩
  | 1 => ⟨S_, .f32⟩
  | 2 => ⟨S100000, .f32⟩
  | 3 => ⟨S100000, .f32⟩
  | 4 => ⟨S100000x1, .f32⟩
  | 5 => ⟨S100000x128, .f32⟩
  | 6 => ⟨S100000x128, .f32⟩
  | 7 => ⟨S100000x128, .f32⟩
  | 8 => ⟨S1x128, .f32⟩
  | 9 => ⟨S100000x128, .f32⟩
  | 10 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_call0_cst : Ref sig .tc := ⟨.hbm, 73, rfl⟩
abbrev main_call0_v0 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_c_12 : Ref sig .tc := ⟨.hbm, 79, rfl⟩
abbrev main_v57 : Ref sig .tc := ⟨.hbm, 80, rfl⟩
abbrev main_v58 : Ref sig .tc := ⟨.hbm, 81, rfl⟩
abbrev main_c_13 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_14 : Ref sig .tc := ⟨.hbm, 87, rfl⟩
abbrev main_v63 : Ref sig .tc := ⟨.hbm, 88, rfl⟩
abbrev main_v64 : Ref sig .tc := ⟨.hbm, 89, rfl⟩
abbrev main_cst_15 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_16 : Ref sig .tc := ⟨.hbm, 94, rfl⟩
abbrev main_v68 : Ref sig .tc := ⟨.hbm, 95, rfl⟩
abbrev main_v69 : Ref sig .tc := ⟨.hbm, 96, rfl⟩
abbrev main_c_17 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c_18 : Ref sig .tc := ⟨.hbm, 103, rfl⟩
abbrev main_v75 : Ref sig .tc := ⟨.hbm, 104, rfl⟩
abbrev main_v76 : Ref sig .tc := ⟨.hbm, 105, rfl⟩
abbrev main_c_19 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_c_20 : Ref sig .tc := ⟨.hbm, 113, rfl⟩
abbrev main_v83 : Ref sig .tc := ⟨.hbm, 114, rfl⟩
abbrev main_v84 : Ref sig .tc := ⟨.hbm, 115, rfl⟩
abbrev main_c_21 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_22 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_cst_23 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.NodeOps.lean ====
/-
  The two dense node-wise operations of a graph-convolution layer, each as ONE function of whole arrays, index by
  index over the extended reals.

  * `linear x w`: the feature transform. Row `r`, column `q` of the result is the sum over the 128 input
    channels `k` of `x[r, k] · w[k, q]`.
  * `combine agg h d b`: the neighbour sum `agg` plus the node's own transformed features `h` scaled by the
    node's own coefficient `d[r]` (a column: one entry per node), plus the bias `b[q]` (a row: one entry per
    channel) — grouped `(agg + h · d) + b`.
  * `combineRelu`: the same followed by the maximum with zero.
  * `asCol`, `asRow`: a vector with one entry per node laid out as a column, and one with an entry per channel laid
    out as a row; entry `(r, 0)` of the column is the vector's entry `r`, entry `(0, q)` of the row its entry `q`.
-/
import Idealize.ShloMosaic.PureOps.Ideal
import Idealize.ShloMosaic.Lib.ValueIdx

noncomputable section

namespace Cert.NodeOps

open Idealize.ShloMosaic Idealize.ShloMosaic.ValueIdx

/-- Node features: 100000 nodes, 128 channels. -/
abbrev Feat : Shape := ⟨2, ![100000, 128]⟩
/-- A weight matrix: 128 input channels by 128 output channels. -/
abbrev Wgt : Shape := ⟨2, ![128, 128]⟩
/-- One coefficient per node, as a column. -/
abbrev NodeCol : Shape := ⟨2, ![100000, 1]⟩
/-- One entry per channel, as a row. -/
abbrev ChanRow : Shape := ⟨2, ![1, 128]⟩

/-- One coefficient per node, as a vector. -/
abbrev NodeVec : Shape := ⟨1, ![100000]⟩
/-- One entry per channel, as a vector. -/
abbrev ChanVec : Shape := ⟨1, ![128]⟩

/-- A per-node vector as a column. -/
def asCol (d : FVec Ideal NodeVec .f32) : FVec Ideal NodeCol .f32 := fun i => d (ix1 (i 0))
/-- A per-channel vector as a row. -/
def asRow (b : FVec Ideal ChanVec .f32) : FVec Ideal ChanRow .f32 := fun i => b (ix1 (i 1))

theorem asCol_apply (d : FVec Ideal NodeVec .f32) (i : NodeCol.Idx) : asCol d i = d (ix1 (i 0)) := rfl
theorem asRow_apply (b : FVec Ideal ChanVec .f32) (i : ChanRow.Idx) : asRow b i = b (ix1 (i 1)) := rfl

/-- The feature transform `x · w`: entry `(r, q)` is the sum over channels `k` of `x[r, k] · w[k, q]`. -/
def linear (x : FVec Ideal Feat .f32) (w : FVec Ideal Wgt .f32) : FVec Ideal Feat .f32 :=
  fun i => ∑ k : Fin 128, x (ix2 (i 0) k) * w (ix2 k (i 1))

/-- `(agg + h · d) + b` entry by entry, `d` read at the entry's node and `b` at its channel. -/
def combine (agg h : FVec Ideal Feat .f32) (d : FVec Ideal NodeCol .f32) (b : FVec Ideal ChanRow .f32) :
    FVec Ideal Feat .f32 :=
  fun i => agg i + h i * d (ix2 (i 0) (0 : Fin 1)) + b (ix2 (0 : Fin 1) (i 1))

/-- `combine` followed by the maximum with the real number zero. -/
def combineRelu (agg h : FVec Ideal Feat .f32) (d : FVec Ideal NodeCol .f32) (b : FVec Ideal ChanRow .f32) :
    FVec Ideal Feat .f32 :=
  fun i => max (combine agg h d b i) (Ideal.ofBits .f32 0x00000000#32)

theorem linear_apply (x : FVec Ideal Feat .f32) (w : FVec Ideal Wgt .f32) (i : Feat.Idx) :
    linear x w i = ∑ k : Fin 128, x (ix2 (i 0) k) * w (ix2 k (i 1)) := rfl

theorem combine_apply (agg h : FVec Ideal Feat .f32) (d : FVec Ideal NodeCol .f32) (b : FVec Ideal ChanRow .f32)
    (i : Feat.Idx) :
    combine agg h d b i = agg i + h i * d (ix2 (i 0) (0 : Fin 1)) + b (ix2 (0 : Fin 1) (i 1)) := rfl

theorem combineRelu_apply (agg h : FVec Ideal Feat .f32) (d : FVec Ideal NodeCol .f32) (b : FVec Ideal ChanRow .f32)
    (i : Feat.Idx) :
    combineRelu agg h d b i = max (combine agg h d b i) (Ideal.ofBits .f32 0x00000000#32) := rfl

end Cert.NodeOps

end
-- ==== Proof.Linear0.lean ====
/-
  The first feature transform, read off its pipeline: what the row-tiled product leaves in its result array.

  The 100000 rows are cut into 25 blocks of 4000. At block `t` the body multiplies rows `4000·t … 4000·t + 3999`
  of the left array by the whole 128×128 right array, into a zero accumulator; over the extended reals the narrowing
  of the operands changes nothing, and zero plus the sum is the sum. So entry `(p, q)` of block `t` is
  `∑ k, x[4000·t + p, k] · w[k, q]`: block `t` of the one function `linear x w`. The 25 blocks tile the array,
  hence the array ends holding `linear x w`.
-/
import proofs.«137894_j730144441187_1_alg».proof.Proof.Gen.KernelIdeal.Frame
import proofs.«137894_j730144441187_1_alg».proof.Proof.NodeOps
import Idealize.ShloMosaic.Lib.Pipeline.Value
import Idealize.ShloMosaic.Lib.ValueIdx
import Idealize.ShloMosaic.PureOps.Ideal.Laws

set_option maxRecDepth 16384

noncomputable section

namespace Cert.KernelIdeal.Linear0

open Idealize.ShloMosaic Idealize.ShloMosaic.TcCoe Idealize.SL.Sem Idealize.ShloMosaic.ValueIdx
open Cert.KernelIdeal Cert.KernelIdeal.Gen Cert.NodeOps
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The block product at an index -/

/-- The left operand's row is the output's row. -/
theorem lhs_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- The left operand's column is the contracted channel. -/
theorem lhs_chan (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand's row is the contracted channel. -/
theorem rhs_chan (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- The right operand's column is the output's column. -/
theorem rhs_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The body's product of a 4000-row block `x0` with the weights `x1`, at row `p` and column `q`: the sum over
    the 128 channels. -/
theorem pay_apply (x0 : Vec Ideal S4000x128 .f32) (x1 : Vec Ideal S128x128 .f32) (p : Fin 4000) (q : Fin 128) :
    k0_pay1 (F := Ideal) x0 x1 (ix2 p q) = ∑ k : Fin 128, x0 (ix2 p k) * x1 (ix2 k q) := by
  unfold k0_pay1
  refine (Ideal.matmul_constant_zero_apply dot_S4000x128_S128x128_S4000x128_1_0_0_1_n_n none _ _ (ix2 p q)).trans ?_
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs_row _ _
    | ⟨1, _⟩ => exact (lhs_chan _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs_chan _ _).trans hk
    | ⟨1, _⟩ => exact rhs_col _ _)
  rw [el, er]
  rfl

/-! ## The blocks -/

/-- Where the three windows' blocks sit at grid point `t`: the row-tiled ones at block row `t`, the weights at the
    origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of `linear` of the two arrays as the region finds them. -/
theorem flushed_eq (c : Dev nD) (t : Fin cfg0.N) :
    (dat0 V c).flushed 2 t = ((cfg0.win 2).blk t).view.read (Elt Ideal) (linear (V c main_arg0) (V c main_arg2)) := by
  show (cfg0.win 2).cut (grid0.coords t) ((dat0 V c).after 2 t) = _
  rw [after0_2]
  unfold out0_2
  rw [View.canon_unit_zero hz]
  simp only [View.ld_unit_zero (S := S4000x128) hz, View.ld_unit_zero (S := S128x128) hz]
  obtain ⟨e0, e1, e2, e3, e4, e5⟩ := idx_facts t
  funext j
  obtain ⟨p, q, rfl⟩ : ∃ (p : Fin 4000) (q : Fin 128), j = ix2 p q := ⟨j 0, j 1, eq_ix2 j⟩
  show k0_pay1 (F := Ideal) (iblk0 V c 0 t) (iblk0 V c 1 t) (ix2 p q)
    = linear (V c main_arg0) (V c main_arg2) (((cfg0.win 2).blk t).view.emb (ix2 p q))
  refine (pay_apply _ _ p q).trans ?_
  rw [linear_apply]
  refine Finset.sum_congr rfl fun k _ => ?_
  -- the left block's row `p` is the array's row `4000·t + p`, which is the output entry's row
  have h0 : iblk0 V c 0 t (ix2 p k) = V c main_arg0 (ix2 ((((cfg0.win 2).blk t).view.emb (ix2 p q)) 0) k) := by
    show V c main_arg0 (((cfg0.win 0).blk t).view.emb (ix2 p k)) = _
    refine congrArg (V c main_arg0) (funext fun a => Fin.ext ?_)
    match a with
    | ⟨0, _⟩ => show win0_0.index t (0 : Fin 2) * 4000 + 1 * p.val = win0_2.index t (0 : Fin 2) * 4000 + 1 * p.val; omega
    | ⟨1, _⟩ => show win0_0.index t (1 : Fin 2) * 128 + 1 * k.val = k.val; omega
  -- the weights' block is the whole weight array
  have h1 : iblk0 V c 1 t (ix2 k q) = V c main_arg2 (ix2 k ((((cfg0.win 2).blk t).view.emb (ix2 p q)) 1)) := by
    show V c main_arg2 (((cfg0.win 1).blk t).view.emb (ix2 k q)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [h0, h1]

/-- An index of the result array is in point `t`'s block iff each coordinate is in the block's range on its axis. -/
theorem mem_blk (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v34).slice (win0_2.rect t)).set ↔ _
  rw [View.set_slice_whole, Rect.mem_set_unit]
  exact Iff.rfl

/-- THE ARRAY after the region: row `r` lies in block `r / 4000`, so the 25 blocks cover it and it holds
    `linear` of the two arrays the region found. -/
theorem final (c : Dev nD) : (dat0 V c).arrAt 2 cfg0.N = linear (V c main_arg0) (V c main_arg2) :=
  (dat0 V c).arrAt_eq_of_cover 2 _ (fun t _ => flushed_eq V c t) fun i => by
    have hi0 : (i 0).val < 100000 := (i 0).isLt
    have hi1 : (i 1).val < 128 := (i 1).isLt
    have hN : cfg0.N = 25 := N_0
    have ht : (i 0).val / 4000 < cfg0.N := by rw [hN]; omega
    refine ⟨⟨(i 0).val / 4000, ht⟩, flush0_2 _, ?_⟩
    rw [mem_blk]
    obtain ⟨-, -, -, -, e4, e5⟩ := idx_facts ⟨(i 0).val / 4000, ht⟩
    intro a
    match a with
    | ⟨0, _⟩ =>
      show win0_2.index ⟨(i 0).val / 4000, ht⟩ (0 : Fin 2) * 4000 ≤ (i 0).val ∧ (i 0).val < win0_2.index ⟨(i 0).val / 4000, ht⟩ (0 : Fin 2) * 4000 + 4000
      rw [e4]; show (i 0).val / 4000 * 4000 ≤ (i 0).val ∧ (i 0).val < (i 0).val / 4000 * 4000 + 4000; omega
    | ⟨1, _⟩ =>
      show win0_2.index ⟨(i 0).val / 4000, ht⟩ (1 : Fin 2) * 128 ≤ (i 1).val ∧ (i 1).val < win0_2.index ⟨(i 0).val / 4000, ht⟩ (1 : Fin 2) * 128 + 128
      rw [e5]; omega

end Cert.KernelIdeal.Linear0

end
-- ==== Proof.Combine1.lean ====
/-
  The first layer's combine step, read off its pipeline: what the row-tiled entrywise pass leaves in its result array.

  The 100000 rows are cut into 25 blocks of 4000. At block `t` the body reads rows `4000·t … 4000·t + 3999` of the
  neighbour sum, of the transformed features and of the per-node coefficient column, and the one bias row; it spreads
  the column along the channels and the row along the nodes and forms `(agg + h · d) + b`, and the maximum with zero is taken entry by entry. So entry
  `(p, q)` of block `t` is `combineRelu` of the four arrays at `(4000·t + p, q)`: block `t` of one function. The 25
  blocks tile the array, hence the array ends holding `combineRelu` of the four arrays the region found.
-/
import proofs.«137894_j730144441187_1_alg».proof.Proof.Gen.KernelIdeal.Frame
import proofs.«137894_j730144441187_1_alg».proof.Proof.NodeOps
import Idealize.ShloMosaic.Lib.Pipeline.Value
import Idealize.ShloMosaic.Lib.ValueIdx
import Idealize.ShloMosaic.PureOps.Ideal.Laws

set_option maxRecDepth 16384

noncomputable section

namespace Cert.KernelIdeal.Combine1

open Idealize.ShloMosaic Idealize.ShloMosaic.TcCoe Idealize.SL.Sem Idealize.ShloMosaic.ValueIdx
open Cert.KernelIdeal Cert.KernelIdeal.Gen Cert.NodeOps
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The body's arithmetic at an index -/

/-- A per-node column spread along the 128 channels, at row `p`: the column's entry for that row. -/
theorem spread_col (x2 : Vec Ideal S4000x1 .f32) (p : Fin 4000) (q : Fin 128) :
    broadcastTo S4000x128 x2 broadcasts_S4000x1_S4000x128 (ix2 p q) = x2 (ix2 p (0 : Fin 1)) :=
  broadcastTo_apply x2 broadcasts_S4000x1_S4000x128 (ix2 p q) (ix2 p (0 : Fin 1)) (fun a => match a with
    | ⟨0, _⟩ => by show p.val = if (4000 : Nat) = 1 then 0 else p.val; rw [if_neg (by decide)]
    | ⟨1, _⟩ => by show 0 = if (1 : Nat) = 1 then 0 else q.val; rw [if_pos rfl])

/-- A per-channel row spread along the 4000 rows, at column `q`: the row's entry for that channel. -/
theorem spread_row (x3 : Vec Ideal S1x128 .f32) (p : Fin 4000) (q : Fin 128) :
    broadcastTo S4000x128 x3 broadcasts_S1x128_S4000x128 (ix2 p q) = x3 (ix2 (0 : Fin 1) q) :=
  broadcastTo_apply x3 broadcasts_S1x128_S4000x128 (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-- The body's value at row `p`, column `q` of a block, from the four loaded blocks. -/
theorem pay_apply (x0 x1 : Vec Ideal S4000x128 .f32) (x2 : Vec Ideal S4000x1 .f32) (x3 : Vec Ideal S1x128 .f32)
    (p : Fin 4000) (q : Fin 128) :
    k1_pay1 (F := Ideal) x0 x1 x2 x3 (ix2 p q) = max (x0 (ix2 p q) + x1 (ix2 p q) * x2 (ix2 p (0 : Fin 1)) + x3 (ix2 (0 : Fin 1) q)) (Ideal.ofBits .f32 0x00000000#32) := by
  unfold k1_pay1
  simp only [shapeCast_self]
  show max (x0 (ix2 p q) + x1 (ix2 p q) * broadcastTo S4000x128 x2 broadcasts_S4000x1_S4000x128 (ix2 p q) + broadcastTo S4000x128 x3 broadcasts_S1x128_S4000x128 (ix2 p q)) (Ideal.ofBits .f32 0x00000000#32) = _
  rw [spread_col, spread_row]

/-! ## The blocks -/

/-- Where the five windows' blocks sit at grid point `t`: the row-tiled ones at block row `t`, the bias row at the
    origin. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- WHAT POINT `t` WRITES BACK is block `t` of `combineRelu` of the four arrays as the region finds them. -/
theorem flushed_eq (c : Dev nD) (t : Fin cfg1.N) :
    (dat1 V c).flushed 4 t = ((cfg1.win 4).blk t).view.read (Elt Ideal)
      (combineRelu (V c main_v47) (V c main_v34) (V c main_v33) (V c main_v48)) := by
  show (cfg1.win 4).cut (grid1.coords t) ((dat1 V c).after 4 t) = _
  rw [after1_4]
  unfold out1_4
  rw [View.canon_unit_zero hz]
  simp only [View.ld_unit_zero (S := S4000x128) hz, View.ld_unit_zero (S := S4000x1) hz, View.ld_unit_zero (S := S1x128) hz]
  obtain ⟨e0, e1, e2, e3, e4, e5, e6, e7, e8, e9⟩ := idx_facts t
  funext j
  obtain ⟨p, q, rfl⟩ : ∃ (p : Fin 4000) (q : Fin 128), j = ix2 p q := ⟨j 0, j 1, eq_ix2 j⟩
  show k1_pay1 (F := Ideal) (iblk1 V c 0 t) (iblk1 V c 1 t) (iblk1 V c 2 t) (iblk1 V c 3 t) (ix2 p q)
    = combineRelu (V c main_v47) (V c main_v34) (V c main_v33) (V c main_v48) (((cfg1.win 4).blk t).view.emb (ix2 p q))
  refine (pay_apply _ _ _ _ p q).trans ?_
  rw [combineRelu_apply, combine_apply]
  -- each row-tiled block's row `p` is its array's row `4000·t + p`, the output entry's row
  have h0 : iblk1 V c 0 t (ix2 p q) = V c main_v47 (((cfg1.win 4).blk t).view.emb (ix2 p q)) := by
    show V c main_v47 (((cfg1.win 0).blk t).view.emb (ix2 p q)) = _
    refine congrArg (V c main_v47) (funext fun a => Fin.ext ?_)
    match a with
    | ⟨0, _⟩ => show win1_0.index t (0 : Fin 2) * 4000 + 1 * p.val = win1_4.index t (0 : Fin 2) * 4000 + 1 * p.val; omega
    | ⟨1, _⟩ => show win1_0.index t (1 : Fin 2) * 128 + 1 * q.val = win1_4.index t (1 : Fin 2) * 128 + 1 * q.val; omega
  have h1 : iblk1 V c 1 t (ix2 p q) = V c main_v34 (((cfg1.win 4).blk t).view.emb (ix2 p q)) := by
    show V c main_v34 (((cfg1.win 1).blk t).view.emb (ix2 p q)) = _
    refine congrArg (V c main_v34) (funext fun a => Fin.ext ?_)
    match a with
    | ⟨0, _⟩ => show win1_1.index t (0 : Fin 2) * 4000 + 1 * p.val = win1_4.index t (0 : Fin 2) * 4000 + 1 * p.val; omega
    | ⟨1, _⟩ => show win1_1.index t (1 : Fin 2) * 128 + 1 * q.val = win1_4.index t (1 : Fin 2) * 128 + 1 * q.val; omega
  have h2 : iblk1 V c 2 t (ix2 p (0 : Fin 1)) = V c main_v33 (ix2 ((((cfg1.win 4).blk t).view.emb (ix2 p q)) 0) (0 : Fin 1)) := by
    show V c main_v33 (((cfg1.win 2).blk t).view.emb (ix2 p (0 : Fin 1))) = _
    refine congrArg (V c main_v33) (funext fun a => Fin.ext ?_)
    match a with
    | ⟨0, _⟩ => show win1_2.index t (0 : Fin 2) * 4000 + 1 * p.val = win1_4.index t (0 : Fin 2) * 4000 + 1 * p.val; omega
    | ⟨1, _⟩ => show win1_2.index t (1 : Fin 2) * 1 + 1 * 0 = 0; omega
  -- the bias row's block is the whole row
  have h3 : iblk1 V c 3 t (ix2 (0 : Fin 1) q) = V c main_v48 (ix2 (0 : Fin 1) ((((cfg1.win 4).blk t).view.emb (ix2 p q)) 1)) := by
    show V c main_v48 (((cfg1.win 3).blk t).view.emb (ix2 (0 : Fin 1) q)) = _
    refine congrArg (V c main_v48) (funext fun a => Fin.ext ?_)
    match a with
    | ⟨0, _⟩ => show win1_3.index t (0 : Fin 2) * 1 + 1 * 0 = 0; omega
    | ⟨1, _⟩ => show win1_3.index t (1 : Fin 2) * 128 + 1 * q.val = win1_4.index t (1 : Fin 2) * 128 + 1 * q.val; omega
  rw [h0, h1, h2, h3]

/-- An index of the result array is in point `t`'s block iff each coordinate is in the block's range on its axis. -/
theorem mem_blk (t : Fin cfg1.N) (i : S100000x128.Idx) :
    i ∈ ((cfg1.win 4).blk t).view.set ↔ ∀ a : Fin 2, win1_4.index t a * S4000x128.size a ≤ (i a).val ∧ (i a).val < win1_4.index t a * S4000x128.size a + S4000x128.size a := by
  show i ∈ ((View.whole main_v49).slice (win1_4.rect t)).set ↔ _
  rw [View.set_slice_whole, Rect.mem_set_unit]
  exact Iff.rfl

/-- THE ARRAY after the region: row `r` lies in block `r / 4000`, so the 25 blocks cover it and it holds
    `combineRelu` of the four arrays the region found. -/
theorem final (c : Dev nD) : (dat1 V c).arrAt 4 cfg1.N = combineRelu (V c main_v47) (V c main_v34) (V c main_v33) (V c main_v48) :=
  (dat1 V c).arrAt_eq_of_cover 4 _ (fun t _ => flushed_eq V c t) fun i => by
    have hi0 : (i 0).val < 100000 := (i 0).isLt
    have hi1 : (i 1).val < 128 := (i 1).isLt
    have hN : cfg1.N = 25 := N_1
    have ht : (i 0).val / 4000 < cfg1.N := by rw [hN]; omega
    refine ⟨⟨(i 0).val / 4000, ht⟩, flush1_4 _, ?_⟩
    rw [mem_blk]
    obtain ⟨-, -, -, -, -, -, -, -, e8, e9⟩ := idx_facts ⟨(i 0).val / 4000, ht⟩
    intro a
    match a with
    | ⟨0, _⟩ =>
      show win1_4.index ⟨(i 0).val / 4000, ht⟩ (0 : Fin 2) * 4000 ≤ (i 0).val ∧ (i 0).val < win1_4.index ⟨(i 0).val / 4000, ht⟩ (0 : Fin 2) * 4000 + 4000
      rw [e8]; show (i 0).val / 4000 * 4000 ≤ (i 0).val ∧ (i 0).val < (i 0).val / 4000 * 4000 + 4000; omega
    | ⟨1, _⟩ =>
      show win1_4.index ⟨(i 0).val / 4000, ht⟩ (1 : Fin 2) * 128 ≤ (i 1).val ∧ (i 1).val < win1_4.index ⟨(i 0).val / 4000, ht⟩ (1 : Fin 2) * 128 + 128
      rw [e9]; omega

end Cert.KernelIdeal.Combine1

end
-- ==== Proof.Linear2.lean ====
/-
  The second feature transform, read off its pipeline: what the row-tiled product leaves in its result array.

  The 100000 rows are cut into 25 blocks of 4000. At block `t` the body multiplies rows `4000·t … 4000·t + 3999`
  of the left array (here the first layer's output; the body first re-reads the block at its own shape, which is the
  identity) by the whole 128×128 right array, into a zero accumulator; over the extended reals the narrowing of the
  operands changes nothing, and zero plus the sum is the sum. So entry `(p, q)` of block `t` is
  `∑ k, x[4000·t + p, k] · w[k, q]`: block `t` of the one function `linear x w`. The 25 blocks tile the array,
  hence the array ends holding `linear x w`.
-/
import proofs.«137894_j730144441187_1_alg».proof.Proof.Gen.KernelIdeal.Frame
import proofs.«137894_j730144441187_1_alg».proof.Proof.NodeOps
import Idealize.ShloMosaic.Lib.Pipeline.Value
import Idealize.ShloMosaic.Lib.ValueIdx
import Idealize.ShloMosaic.PureOps.Ideal.Laws

set_option maxRecDepth 16384

noncomputable section

namespace Cert.KernelIdeal.Linear2

open Idealize.ShloMosaic Idealize.ShloMosaic.TcCoe Idealize.SL.Sem Idealize.ShloMosaic.ValueIdx
open Cert.KernelIdeal Cert.KernelIdeal.Gen Cert.NodeOps
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The block product at an index -/

/-- The left operand's row is the output's row. -/
theorem lhs_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- The left operand's column is the contracted channel. -/
theorem lhs_chan (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand's row is the contracted channel. -/
theorem rhs_chan (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- The right operand's column is the output's column. -/
theorem rhs_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The body's product of a 4000-row block `x0` with the weights `x1`, at row `p` and column `q`: the sum over
    the 128 channels. -/
theorem pay_apply (x0 : Vec Ideal S4000x128 .f32) (x1 : Vec Ideal S128x128 .f32) (p : Fin 4000) (q : Fin 128) :
    k2_pay1 (F := Ideal) x0 x1 (ix2 p q) = ∑ k : Fin 128, x0 (ix2 p k) * x1 (ix2 k q) := by
  unfold k2_pay1
  refine (Ideal.matmul_constant_zero_apply dot_S4000x128_S128x128_S4000x128_1_0_0_1_n_n none _ _ (ix2 p q)).trans ?_
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs_row _ _
    | ⟨1, _⟩ => exact (lhs_chan _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs_chan _ _).trans hk
    | ⟨1, _⟩ => exact rhs_col _ _)
  rw [el, er]
  show shapeCast S4000x128 x0 shapeCasts_S4000x128_S4000x128 (ix2 p k) * x1 (ix2 k q) = x0 (ix2 p k) * x1 (ix2 k q)
  rw [shapeCast_self]

/-! ## The blocks -/

/-- Where the three windows' blocks sit at grid point `t`: the row-tiled ones at block row `t`, the weights at the
    origin. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- WHAT POINT `t` WRITES BACK is block `t` of `linear` of the two arrays as the region finds them. -/
theorem flushed_eq (c : Dev nD) (t : Fin cfg2.N) :
    (dat2 V c).flushed 2 t = ((cfg2.win 2).blk t).view.read (Elt Ideal) (linear (V c main_v49) (V c main_arg4)) := by
  show (cfg2.win 2).cut (grid2.coords t) ((dat2 V c).after 2 t) = _
  rw [after2_2]
  unfold out2_2
  rw [View.canon_unit_zero hz]
  simp only [View.ld_unit_zero (S := S4000x128) hz, View.ld_unit_zero (S := S128x128) hz]
  obtain ⟨e0, e1, e2, e3, e4, e5⟩ := idx_facts t
  funext j
  obtain ⟨p, q, rfl⟩ : ∃ (p : Fin 4000) (q : Fin 128), j = ix2 p q := ⟨j 0, j 1, eq_ix2 j⟩
  show k2_pay1 (F := Ideal) (iblk2 V c 0 t) (iblk2 V c 1 t) (ix2 p q)
    = linear (V c main_v49) (V c main_arg4) (((cfg2.win 2).blk t).view.emb (ix2 p q))
  refine (pay_apply _ _ p q).trans ?_
  rw [linear_apply]
  refine Finset.sum_congr rfl fun k _ => ?_
  -- the left block's row `p` is the array's row `4000·t + p`, which is the output entry's row
  have h0 : iblk2 V c 0 t (ix2 p k) = V c main_v49 (ix2 ((((cfg2.win 2).blk t).view.emb (ix2 p q)) 0) k) := by
    show V c main_v49 (((cfg2.win 0).blk t).view.emb (ix2 p k)) = _
    refine congrArg (V c main_v49) (funext fun a => Fin.ext ?_)
    match a with
    | ⟨0, _⟩ => show win2_0.index t (0 : Fin 2) * 4000 + 1 * p.val = win2_2.index t (0 : Fin 2) * 4000 + 1 * p.val; omega
    | ⟨1, _⟩ => show win2_0.index t (1 : Fin 2) * 128 + 1 * k.val = k.val; omega
  -- the weights' block is the whole weight array
  have h1 : iblk2 V c 1 t (ix2 k q) = V c main_arg4 (ix2 k ((((cfg2.win 2).blk t).view.emb (ix2 p q)) 1)) := by
    show V c main_arg4 (((cfg2.win 1).blk t).view.emb (ix2 k q)) = _
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  rw [h0, h1]

/-- An index of the result array is in point `t`'s block iff each coordinate is in the block's range on its axis. -/
theorem mem_blk (t : Fin cfg2.N) (i : S100000x128.Idx) :
    i ∈ ((cfg2.win 2).blk t).view.set ↔ ∀ a : Fin 2, win2_2.index t a * S4000x128.size a ≤ (i a).val ∧ (i a).val < win2_2.index t a * S4000x128.size a + S4000x128.size a := by
  show i ∈ ((View.whole main_v50).slice (win2_2.rect t)).set ↔ _
  rw [View.set_slice_whole, Rect.mem_set_unit]
  exact Iff.rfl

/-- THE ARRAY after the region: row `r` lies in block `r / 4000`, so the 25 blocks cover it and it holds
    `linear` of the two arrays the region found. -/
theorem final (c : Dev nD) : (dat2 V c).arrAt 2 cfg2.N = linear (V c main_v49) (V c main_arg4) :=
  (dat2 V c).arrAt_eq_of_cover 2 _ (fun t _ => flushed_eq V c t) fun i => by
    have hi0 : (i 0).val < 100000 := (i 0).isLt
    have hi1 : (i 1).val < 128 := (i 1).isLt
    have hN : cfg2.N = 25 := N_2
    have ht : (i 0).val / 4000 < cfg2.N := by rw [hN]; omega
    refine ⟨⟨(i 0).val / 4000, ht⟩, flush2_2 _, ?_⟩
    rw [mem_blk]
    obtain ⟨-, -, -, -, e4, e5⟩ := idx_facts ⟨(i 0).val / 4000, ht⟩
    intro a
    match a with
    | ⟨0, _⟩ =>
      show win2_2.index ⟨(i 0).val / 4000, ht⟩ (0 : Fin 2) * 4000 ≤ (i 0).val ∧ (i 0).val < win2_2.index ⟨(i 0).val / 4000, ht⟩ (0 : Fin 2) * 4000 + 4000
      rw [e4]; show (i 0).val / 4000 * 4000 ≤ (i 0).val ∧ (i 0).val < (i 0).val / 4000 * 4000 + 4000; omega
    | ⟨1, _⟩ =>
      show win2_2.index ⟨(i 0).val / 4000, ht⟩ (1 : Fin 2) * 128 ≤ (i 1).val ∧ (i 1).val < win2_2.index ⟨(i 0).val / 4000, ht⟩ (1 : Fin 2) * 128 + 128
      rw [e5]; omega

end Cert.KernelIdeal.Linear2

end
-- ==== Proof.Combine3.lean ====
/-
  The second layer's combine step, read off its pipeline: what the row-tiled entrywise pass leaves in its result array.

  The 100000 rows are cut into 25 blocks of 4000. At block `t` the body reads rows `4000·t … 4000·t + 3999` of the
  neighbour sum, of the transformed features and of the per-node coefficient column, and the one bias row; it spreads
  the column along the channels and the row along the nodes and forms `(agg + h · d) + b`. So entry
  `(p, q)` of block `t` is `combine` of the four arrays at `(4000·t + p, q)`: block `t` of one function. The 25
  blocks tile the array, hence the array ends holding `combine` of the four arrays the region found.
-/
import proofs.«137894_j730144441187_1_alg».proof.Proof.Gen.KernelIdeal.Frame
import proofs.«137894_j730144441187_1_alg».proof.Proof.NodeOps
import Idealize.ShloMosaic.Lib.Pipeline.Value
import Idealize.ShloMosaic.Lib.ValueIdx
import Idealize.ShloMosaic.PureOps.Ideal.Laws

set_option maxRecDepth 16384

noncomputable section

namespace Cert.KernelIdeal.Combine3

open Idealize.ShloMosaic Idealize.ShloMosaic.TcCoe Idealize.SL.Sem Idealize.ShloMosaic.ValueIdx
open Cert.KernelIdeal Cert.KernelIdeal.Gen Cert.NodeOps
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The body's arithmetic at an index -/

/-- A per-node column spread along the 128 channels, at row `p`: the column's entry for that row. -/
theorem spread_col (x2 : Vec Ideal S4000x1 .f32) (p : Fin 4000) (q : Fin 128) :
    broadcastTo S4000x128 x2 broadcasts_S4000x1_S4000x128 (ix2 p q) = x2 (ix2 p (0 : Fin 1)) :=
  broadcastTo_apply x2 broadcasts_S4000x1_S4000x128 (ix2 p q) (ix2 p (0 : Fin 1)) (fun a => match a with
    | ⟨0, _⟩ => by show p.val = if (4000 : Nat) = 1 then 0 else p.val; rw [if_neg (by decide)]
    | ⟨1, _⟩ => by show 0 = if (1 : Nat) = 1 then 0 else q.val; rw [if_pos rfl])

/-- A per-channel row spread along the 4000 rows, at column `q`: the row's entry for that channel. -/
theorem spread_row (x3 : Vec Ideal S1x128 .f32) (p : Fin 4000) (q : Fin 128) :
    broadcastTo S4000x128 x3 broadcasts_S1x128_S4000x128 (ix2 p q) = x3 (ix2 (0 : Fin 1) q) :=
  broadcastTo_apply x3 broadcasts_S1x128_S4000x128 (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-- The body's value at row `p`, column `q` of a block, from the four loaded blocks. -/
theorem pay_apply (x0 x1 : Vec Ideal S4000x128 .f32) (x2 : Vec Ideal S4000x1 .f32) (x3 : Vec Ideal S1x128 .f32)
    (p : Fin 4000) (q : Fin 128) :
    k3_pay1 (F := Ideal) x0 x1 x2 x3 (ix2 p q) = x0 (ix2 p q) + x1 (ix2 p q) * x2 (ix2 p (0 : Fin 1)) + x3 (ix2 (0 : Fin 1) q) := by
  unfold k3_pay1
  simp only [shapeCast_self]
  show x0 (ix2 p q) + x1 (ix2 p q) * broadcastTo S4000x128 x2 broadcasts_S4000x1_S4000x128 (ix2 p q) + broadcastTo S4000x128 x3 broadcasts_S1x128_S4000x128 (ix2 p q) = _
  rw [spread_col, spread_row]

/-! ## The blocks -/

/-- Where the five windows' blocks sit at grid point `t`: the row-tiled ones at block row `t`, the bias row at the
    origin. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- WHAT POINT `t` WRITES BACK is block `t` of `combine` of the four arrays as the region finds them. -/
theorem flushed_eq (c : Dev nD) (t : Fin cfg3.N) :
    (dat3 V c).flushed 4 t = ((cfg3.win 4).blk t).view.read (Elt Ideal)
      (combine (V c main_v63) (V c main_v50) (V c main_v33) (V c main_v64)) := by
  show (cfg3.win 4).cut (grid3.coords t) ((dat3 V c).after 4 t) = _
  rw [after3_4]
  unfold out3_4
  rw [View.canon_unit_zero hz]
  simp only [View.ld_unit_zero (S := S4000x128) hz, View.ld_unit_zero (S := S4000x1) hz, View.ld_unit_zero (S := S1x128) hz]
  obtain ⟨e0, e1, e2, e3, e4, e5, e6, e7, e8, e9⟩ := idx_facts t
  funext j
  obtain ⟨p, q, rfl⟩ : ∃ (p : Fin 4000) (q : Fin 128), j = ix2 p q := ⟨j 0, j 1, eq_ix2 j⟩
  show k3_pay1 (F := Ideal) (iblk3 V c 0 t) (iblk3 V c 1 t) (iblk3 V c 2 t) (iblk3 V c 3 t) (ix2 p q)
    = combine (V c main_v63) (V c main_v50) (V c main_v33) (V c main_v64) (((cfg3.win 4).blk t).view.emb (ix2 p q))
  refine (pay_apply _ _ _ _ p q).trans ?_
  rw [combine_apply]
  -- each row-tiled block's row `p` is its array's row `4000·t + p`, the output entry's row
  have h0 : iblk3 V c 0 t (ix2 p q) = V c main_v63 (((cfg3.win 4).blk t).view.emb (ix2 p q)) := by
    show V c main_v63 (((cfg3.win 0).blk t).view.emb (ix2 p q)) = _
    refine congrArg (V c main_v63) (funext fun a => Fin.ext ?_)
    match a with
    | ⟨0, _⟩ => show win3_0.index t (0 : Fin 2) * 4000 + 1 * p.val = win3_4.index t (0 : Fin 2) * 4000 + 1 * p.val; omega
    | ⟨1, _⟩ => show win3_0.index t (1 : Fin 2) * 128 + 1 * q.val = win3_4.index t (1 : Fin 2) * 128 + 1 * q.val; omega
  have h1 : iblk3 V c 1 t (ix2 p q) = V c main_v50 (((cfg3.win 4).blk t).view.emb (ix2 p q)) := by
    show V c main_v50 (((cfg3.win 1).blk t).view.emb (ix2 p q)) = _
    refine congrArg (V c main_v50) (funext fun a => Fin.ext ?_)
    match a with
    | ⟨0, _⟩ => show win3_1.index t (0 : Fin 2) * 4000 + 1 * p.val = win3_4.index t (0 : Fin 2) * 4000 + 1 * p.val; omega
    | ⟨1, _⟩ => show win3_1.index t (1 : Fin 2) * 128 + 1 * q.val = win3_4.index t (1 : Fin 2) * 128 + 1 * q.val; omega
  have h2 : iblk3 V c 2 t (ix2 p (0 : Fin 1)) = V c main_v33 (ix2 ((((cfg3.win 4).blk t).view.emb (ix2 p q)) 0) (0 : Fin 1)) := by
    show V c main_v33 (((cfg3.win 2).blk t).view.emb (ix2 p (0 : Fin 1))) = _
    refine congrArg (V c main_v33) (funext fun a => Fin.ext ?_)
    match a with
    | ⟨0, _⟩ => show win3_2.index t (0 : Fin 2) * 4000 + 1 * p.val = win3_4.index t (0 : Fin 2) * 4000 + 1 * p.val; omega
    | ⟨1, _⟩ => show win3_2.index t (1 : Fin 2) * 1 + 1 * 0 = 0; omega
  -- the bias row's block is the whole row
  have h3 : iblk3 V c 3 t (ix2 (0 : Fin 1) q) = V c main_v64 (ix2 (0 : Fin 1) ((((cfg3.win 4).blk t).view.emb (ix2 p q)) 1)) := by
    show V c main_v64 (((cfg3.win 3).blk t).view.emb (ix2 (0 : Fin 1) q)) = _
    refine congrArg (V c main_v64) (funext fun a => Fin.ext ?_)
    match a with
    | ⟨0, _⟩ => show win3_3.index t (0 : Fin 2) * 1 + 1 * 0 = 0; omega
    | ⟨1, _⟩ => show win3_3.index t (1 : Fin 2) * 128 + 1 * q.val = win3_4.index t (1 : Fin 2) * 128 + 1 * q.val; omega
  rw [h0, h1, h2, h3]

/-- An index of the result array is in point `t`'s block iff each coordinate is in the block's range on its axis. -/
theorem mem_blk (t : Fin cfg3.N) (i : S100000x128.Idx) :
    i ∈ ((cfg3.win 4).blk t).view.set ↔ ∀ a : Fin 2, win3_4.index t a * S4000x128.size a ≤ (i a).val ∧ (i a).val < win3_4.index t a * S4000x128.size a + S4000x128.size a := by
  show i ∈ ((View.whole main_v65).slice (win3_4.rect t)).set ↔ _
  rw [View.set_slice_whole, Rect.mem_set_unit]
  exact Iff.rfl

/-- THE ARRAY after the region: row `r` lies in block `r / 4000`, so the 25 blocks cover it and it holds
    `combine` of the four arrays the region found. -/
theorem final (c : Dev nD) : (dat3 V c).arrAt 4 cfg3.N = combine (V c main_v63) (V c main_v50) (V c main_v33) (V c main_v64) :=
  (dat3 V c).arrAt_eq_of_cover 4 _ (fun t _ => flushed_eq V c t) fun i => by
    have hi0 : (i 0).val < 100000 := (i 0).isLt
    have hi1 : (i 1).val < 128 := (i 1).isLt
    have hN : cfg3.N = 25 := N_3
    have ht : (i 0).val / 4000 < cfg3.N := by rw [hN]; omega
    refine ⟨⟨(i 0).val / 4000, ht⟩, flush3_4 _, ?_⟩
    rw [mem_blk]
    obtain ⟨-, -, -, -, -, -, -, -, e8, e9⟩ := idx_facts ⟨(i 0).val / 4000, ht⟩
    intro a
    match a with
    | ⟨0, _⟩ =>
      show win3_4.index ⟨(i 0).val / 4000, ht⟩ (0 : Fin 2) * 4000 ≤ (i 0).val ∧ (i 0).val < win3_4.index ⟨(i 0).val / 4000, ht⟩ (0 : Fin 2) * 4000 + 4000
      rw [e8]; show (i 0).val / 4000 * 4000 ≤ (i 0).val ∧ (i 0).val < (i 0).val / 4000 * 4000 + 4000; omega
    | ⟨1, _⟩ =>
      show win3_4.index ⟨(i 0).val / 4000, ht⟩ (1 : Fin 2) * 128 ≤ (i 1).val ∧ (i 1).val < win3_4.index ⟨(i 0).val / 4000, ht⟩ (1 : Fin 2) * 128 + 128
      rw [e9]; omega

end Cert.KernelIdeal.Combine3

end
-- ==== Proof.RefLayers.lean ====
/-
  The reference's stages that the kernel computes inside its four tiled passes, identified with the whole-array
  functions of the node-wise operations.

  The reference forms each layer as `x · W` by one product over the whole array, then
  `(agg + h · spread(d)) + spread(b)` with the per-node coefficient `d = 1 / deg` spread along the channels and the
  bias spread along the nodes; the first layer's result goes through the maximum with zero. Entry by entry these are
  `linear`, `combine` and `combineRelu`: the product's entry `(r, q)` is the sum over `k` of `x[r, k] · W[k, q]`,
  and the two spreads read `d` at the entry's node and `b` at its channel.

  The reference computes the degree a second time for its second layer, from the same edge list by the same
  operations: that second coefficient vector IS the first (`coeff_again`), and likewise the second edge
  normalisation IS the first (`norm_again`).
-/
import proofs.«137894_j730144441187_1_alg».proof.Proof.Gen.ReferenceIdeal.Read
import proofs.«137894_j730144441187_1_alg».proof.Proof.NodeOps

noncomputable section

namespace Cert.ReferenceIdeal.Layers

open Idealize.ShloMosaic Idealize.ShloMosaic.TcCoe Idealize.ShloMosaic.ValueIdx
open Cert.ReferenceIdeal Cert.ReferenceIdeal.Read Cert.NodeOps

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))

/-- The second layer's `1 / deg` is the first layer's: the same operations on the same edge list. -/
theorem coeff_again : val_main_v97 (F := Ideal) x1 = val_main_v46 (F := Ideal) x1 := rfl

/-- The second layer's edge normalisation `deg[src]^(-1/2) · deg[dst]^(-1/2)` is the first layer's. -/
theorem norm_again : val_main_v82 (F := Ideal) x1 = val_main_v31 (F := Ideal) x1 := rfl

/-- The first layer's product over the whole array is `linear`. -/
theorem layer1_linear : val_main_v4 (F := Ideal) x0 x2 = linear x0 x2 := by
  funext i
  rw [val_main_v4_apply, linear_apply]
  refine Finset.sum_congr rfl fun k _ => ?_
  have el : lidx_main_v4 i k = ix2 (i 0) k := funext fun a => Fin.ext (by match a with | ⟨0, _⟩ => rfl | ⟨1, _⟩ => rfl)
  have er : ridx_main_v4 i k = ix2 k (i 1) := funext fun a => Fin.ext (by match a with | ⟨0, _⟩ => rfl | ⟨1, _⟩ => rfl)
  rw [el, er]
  rfl

/-- The first layer's output, after the maximum with zero, is `combineRelu` of the neighbour sum, the product, the
    coefficient column and the bias row. -/
theorem layer1_out : val_main_v54 (F := Ideal) x0 x1 x2 x3
    = combineRelu (val_main_v44 (F := Ideal) x0 x1 x2) (val_main_v4 (F := Ideal) x0 x2) (asCol (val_main_v46 (F := Ideal) x1)) (asRow x3) := by
  funext i
  rw [val_main_v54_apply, val_main_v53_apply, val_main_v50_apply, val_main_v49_apply, val_main_v48_apply, val_main_v47_apply,
    val_main_v52_apply, val_main_v51_apply, val_main_call0_v0_apply, val_main_call0_cst_apply,
    combineRelu_apply, combine_apply, asCol_apply, asRow_apply]
  have ec : idx_main_v47 (idx_main_v48 i) = ix1 (i 0) := funext fun a => Fin.ext (by match a with | ⟨0, _⟩ => rfl)
  have er : idx_main_v51 (idx_main_v52 i) = ix1 (i 1) := funext fun a => Fin.ext (by match a with | ⟨0, _⟩ => rfl)
  rw [ec, er]
  rfl

/-- The second layer's product over the whole array is `linear` of the first layer's output. -/
theorem layer2_linear : val_main_v55 (F := Ideal) x0 x1 x2 x3 x4 = linear (val_main_v54 (F := Ideal) x0 x1 x2 x3) x4 := by
  funext i
  rw [val_main_v55_apply, linear_apply]
  refine Finset.sum_congr rfl fun k _ => ?_
  have el : lidx_main_v55 i k = ix2 (i 0) k := funext fun a => Fin.ext (by match a with | ⟨0, _⟩ => rfl | ⟨1, _⟩ => rfl)
  have er : ridx_main_v55 i k = ix2 k (i 1) := funext fun a => Fin.ext (by match a with | ⟨0, _⟩ => rfl | ⟨1, _⟩ => rfl)
  rw [el, er]
  rfl

/-- The reference's result is `combine` of the second neighbour sum, the second product, the coefficient column
    and the second bias row. -/
theorem layer2_out : val_main_v104 (F := Ideal) x0 x1 x2 x3 x4 x5
    = combine (val_main_v95 (F := Ideal) x0 x1 x2 x3 x4) (val_main_v55 (F := Ideal) x0 x1 x2 x3 x4) (asCol (val_main_v46 (F := Ideal) x1)) (asRow x5) := by
  funext i
  rw [val_main_v104_apply, val_main_v101_apply, val_main_v100_apply, val_main_v99_apply, val_main_v98_apply,
    val_main_v103_apply, val_main_v102_apply, coeff_again, combine_apply, asCol_apply, asRow_apply]
  have ec : idx_main_v98 (idx_main_v99 i) = ix1 (i 0) := funext fun a => Fin.ext (by match a with | ⟨0, _⟩ => rfl)
  have er : idx_main_v102 (idx_main_v103 i) = ix1 (i 1) := funext fun a => Fin.ext (by match a with | ⟨0, _⟩ => rfl)
  rw [ec, er]
  rfl

end Cert.ReferenceIdeal.Layers

end
-- ==== Proof.Boundaries.lean ====
/-
  The kernel's values, boundary by boundary, from the launch to the return.

  Between its four tiled passes the kernel runs the same host operations as the reference: the degree count and
  its two coefficient vectors before the first pass, the edge gather, scaling and scatter-add between the passes.
  Each boundary's contents is a fold of those operations over the previous boundary; read at the few buffers that
  are still used later, each value is one of the reference's own stages of the six arguments:

    before pass 0   src, dst, the edge normalisation, the coefficient column `1 / deg`, the arguments;
    after pass 0    the first product `x · W1`                           (`linear`, the reference's product);
    before pass 1   the first neighbour sum and the first bias row;
    after pass 1    the first layer's output                             (`combineRelu`);
    after pass 2    the second product                                   (`linear` of that output);
    before pass 3   the second neighbour sum and the second bias row;
    after pass 3    the result                                           (`combine`): the reference's result.

  The host operations are never opened: a value computed by the same operations from equal operands is the same
  value, whatever a gather or a scatter-add does with its indices.
-/
import proofs.«137894_j730144441187_1_alg».proof.Proof.Gen.KernelIdeal.Frame
import proofs.«137894_j730144441187_1_alg».proof.Proof.Linear0
import proofs.«137894_j730144441187_1_alg».proof.Proof.Combine1
import proofs.«137894_j730144441187_1_alg».proof.Proof.Linear2
import proofs.«137894_j730144441187_1_alg».proof.Proof.Combine3
import proofs.«137894_j730144441187_1_alg».proof.Proof.RefLayers
import Idealize.ShloMosaic.Lib.StableHlo.Run
import Idealize.ShloMosaic.Lib.Pipeline.Value

set_option maxRecDepth 16384

noncomputable section

namespace Cert.KernelIdeal.Boundaries

open Idealize.ShloMosaic Idealize.ShloMosaic.TcCoe Idealize.SL.Sem Idealize.ShloMosaic.ValueIdx Idealize.ShloMosaic.StableHlo
open Cert.KernelIdeal Cert.KernelIdeal.Gen Cert.NodeOps
open Cert.ReferenceIdeal.Read Cert.ReferenceIdeal.Layers

variable (m : (ℓ : Loc nD τ sig) → Buf (Elt Ideal) ℓ) (ρ : Dev nD → PrngReg) (c : Dev nD)

/-! ## Two re-layouts -/

/-- A per-node vector reshaped to a column is that column. -/
theorem col_of_reshape (d : FVec Ideal S100000 .f32) (h : S100000.ShapeCasts S100000x1) :
    shapeCast S100000x1 d h = asCol d := by
  funext i
  refine shapeCast_apply d h i (ix1 (i 0)) ?_
  rw [Shape.rowMajor_val_one, Shape.rowMajor_val_two]
  have h1 : (i 1).val < 1 := (i 1).isLt
  show (i 0).val = (i 0).val * 1 + (i 1).val
  omega

/-- A per-channel vector reshaped to a row is that row. -/
theorem row_of_reshape (b : FVec Ideal S128 .f32) (h : S128.ShapeCasts S1x128) :
    shapeCast S1x128 b h = asRow b := by
  funext i
  refine shapeCast_apply b h i (ix1 (i 1)) ?_
  rw [Shape.rowMajor_val_one, Shape.rowMajor_val_two]
  have h0 : (i 0).val < 1 := (i 0).isLt
  show (i 1).val = (i 0).val * 128 + (i 1).val
  omega

/-! ## Before pass 0 -/

theorem w1_arg0 : W1 m ρ c (Proc.devRef .tc main_arg0) = (m ((c : Thread nD τ).loc main_arg0)) := by
  show StableHlo.after hostOps0 (W0 m ρ c) (Proc.devRef .tc main_arg0) = _
  after_results_simp <;> rfl
theorem w1_arg2 : W1 m ρ c (Proc.devRef .tc main_arg2) = (m ((c : Thread nD τ).loc main_arg2)) := by
  show StableHlo.after hostOps0 (W0 m ρ c) (Proc.devRef .tc main_arg2) = _
  after_results_simp <;> rfl
theorem w1_arg3 : W1 m ρ c (Proc.devRef .tc main_arg3) = (m ((c : Thread nD τ).loc main_arg3)) := by
  show StableHlo.after hostOps0 (W0 m ρ c) (Proc.devRef .tc main_arg3) = _
  after_results_simp <;> rfl
theorem w1_arg4 : W1 m ρ c (Proc.devRef .tc main_arg4) = (m ((c : Thread nD τ).loc main_arg4)) := by
  show StableHlo.after hostOps0 (W0 m ρ c) (Proc.devRef .tc main_arg4) = _
  after_results_simp <;> rfl
theorem w1_arg5 : W1 m ρ c (Proc.devRef .tc main_arg5) = (m ((c : Thread nD τ).loc main_arg5)) := by
  show StableHlo.after hostOps0 (W0 m ρ c) (Proc.devRef .tc main_arg5) = _
  after_results_simp <;> rfl

/-- The edges' source nodes. -/
theorem w1_v1 : W1 m ρ c (Proc.devRef .tc main_v1) = val_main_v1 (F := Ideal) (m ((c : Thread nD τ).loc main_arg1)) := by
  show StableHlo.after hostOps0 (W0 m ρ c) (Proc.devRef .tc main_v1) = _
  after_results_simp <;> rfl
/-- The edges' destination nodes. -/
theorem w1_v3 : W1 m ρ c (Proc.devRef .tc main_v3) = val_main_v3 (F := Ideal) (m ((c : Thread nD τ).loc main_arg1)) := by
  show StableHlo.after hostOps0 (W0 m ρ c) (Proc.devRef .tc main_v3) = _
  after_results_simp <;> rfl
/-- The edge normalisation `deg[src]^(-1/2) · deg[dst]^(-1/2)`. -/
theorem w1_v30 : W1 m ρ c (Proc.devRef .tc main_v30) = val_main_v31 (F := Ideal) (m ((c : Thread nD τ).loc main_arg1)) := by
  show StableHlo.after hostOps0 (W0 m ρ c) (Proc.devRef .tc main_v30) = _
  after_results_simp <;> rfl
/-- The coefficient column `1 / deg`. -/
theorem w1_v33 : W1 m ρ c (Proc.devRef .tc main_v33) = asCol (val_main_v46 (F := Ideal) (m ((c : Thread nD τ).loc main_arg1))) := by
  show StableHlo.after hostOps0 (W0 m ρ c) (Proc.devRef .tc main_v33) = _
  after_results_simp
  refine Eq.trans ?_ (col_of_reshape (val_main_v46 (F := Ideal) (m ((c : Thread nD τ).loc main_arg1))) shapeCasts_S100000_S100000x1)
  rfl

/-! ## After pass 0 -/

/-- The first product. -/
theorem w2_v34 : W2 m ρ c (Proc.devRef .tc main_v34) = val_main_v4 (F := Ideal) (m ((c : Thread nD τ).loc main_arg0)) (m ((c : Thread nD τ).loc main_arg2)) := by
  refine (W2_arr m ρ c 2).trans ?_
  rw [Linear0.final (V1 m ρ) c]
  show linear (W1 m ρ c (Proc.devRef .tc main_arg0)) (W1 m ρ c (Proc.devRef .tc main_arg2)) = _
  rw [w1_arg0, w1_arg2, layer1_linear]

theorem w2_v1 : W2 m ρ c (Proc.devRef .tc main_v1) = W1 m ρ c (Proc.devRef .tc main_v1) := W2_of_ne m ρ c main_v1 (by decide)
theorem w2_v3 : W2 m ρ c (Proc.devRef .tc main_v3) = W1 m ρ c (Proc.devRef .tc main_v3) := W2_of_ne m ρ c main_v3 (by decide)
theorem w2_v30 : W2 m ρ c (Proc.devRef .tc main_v30) = W1 m ρ c (Proc.devRef .tc main_v30) := W2_of_ne m ρ c main_v30 (by decide)
theorem w2_v33 : W2 m ρ c (Proc.devRef .tc main_v33) = W1 m ρ c (Proc.devRef .tc main_v33) := W2_of_ne m ρ c main_v33 (by decide)
theorem w2_arg3 : W2 m ρ c (Proc.devRef .tc main_arg3) = W1 m ρ c (Proc.devRef .tc main_arg3) := W2_of_ne m ρ c main_arg3 (by decide)
theorem w2_arg4 : W2 m ρ c (Proc.devRef .tc main_arg4) = W1 m ρ c (Proc.devRef .tc main_arg4) := W2_of_ne m ρ c main_arg4 (by decide)
theorem w2_arg5 : W2 m ρ c (Proc.devRef .tc main_arg5) = W1 m ρ c (Proc.devRef .tc main_arg5) := W2_of_ne m ρ c main_arg5 (by decide)

/-! ## Before pass 1 -/

/-- The first neighbour sum: gather the product's rows at the sources, scale by the edge normalisation, add up at the
    destinations. -/
theorem w3_v47 : W3 m ρ c (Proc.devRef .tc main_v47) = val_main_v44 (F := Ideal) (m ((c : Thread nD τ).loc main_arg0)) (m ((c : Thread nD τ).loc main_arg1)) (m ((c : Thread nD τ).loc main_arg2)) := by
  show StableHlo.after hostOps1 (W2 m ρ c) (Proc.devRef .tc main_v47) = _
  after_results_simp
  rw [w2_v34, w2_v1, w2_v3, w2_v30, w1_v1, w1_v3, w1_v30]
  rfl
/-- The first bias as a row. -/
theorem w3_v48 : W3 m ρ c (Proc.devRef .tc main_v48) = asRow (m ((c : Thread nD τ).loc main_arg3)) := by
  show StableHlo.after hostOps1 (W2 m ρ c) (Proc.devRef .tc main_v48) = _
  after_results_simp
  rw [w2_arg3, w1_arg3]
  exact row_of_reshape _ _
theorem w3_v34 : W3 m ρ c (Proc.devRef .tc main_v34) = val_main_v4 (F := Ideal) (m ((c : Thread nD τ).loc main_arg0)) (m ((c : Thread nD τ).loc main_arg2)) := by
  show StableHlo.after hostOps1 (W2 m ρ c) (Proc.devRef .tc main_v34) = _
  after_results_simp
  exact w2_v34 m ρ c
theorem w3_v33 : W3 m ρ c (Proc.devRef .tc main_v33) = asCol (val_main_v46 (F := Ideal) (m ((c : Thread nD τ).loc main_arg1))) := by
  show StableHlo.after hostOps1 (W2 m ρ c) (Proc.devRef .tc main_v33) = _
  after_results_simp
  rw [w2_v33, w1_v33]
theorem w3_v1 : W3 m ρ c (Proc.devRef .tc main_v1) = val_main_v1 (F := Ideal) (m ((c : Thread nD τ).loc main_arg1)) := by
  show StableHlo.after hostOps1 (W2 m ρ c) (Proc.devRef .tc main_v1) = _
  after_results_simp
  rw [w2_v1, w1_v1]
theorem w3_v3 : W3 m ρ c (Proc.devRef .tc main_v3) = val_main_v3 (F := Ideal) (m ((c : Thread nD τ).loc main_arg1)) := by
  show StableHlo.after hostOps1 (W2 m ρ c) (Proc.devRef .tc main_v3) = _
  after_results_simp
  rw [w2_v3, w1_v3]
theorem w3_v30 : W3 m ρ c (Proc.devRef .tc main_v30) = val_main_v31 (F := Ideal) (m ((c : Thread nD τ).loc main_arg1)) := by
  show StableHlo.after hostOps1 (W2 m ρ c) (Proc.devRef .tc main_v30) = _
  after_results_simp
  rw [w2_v30, w1_v30]
theorem w3_arg4 : W3 m ρ c (Proc.devRef .tc main_arg4) = (m ((c : Thread nD τ).loc main_arg4)) := by
  show StableHlo.after hostOps1 (W2 m ρ c) (Proc.devRef .tc main_arg4) = _
  after_results_simp
  rw [w2_arg4, w1_arg4]
theorem w3_arg5 : W3 m ρ c (Proc.devRef .tc main_arg5) = (m ((c : Thread nD τ).loc main_arg5)) := by
  show StableHlo.after hostOps1 (W2 m ρ c) (Proc.devRef .tc main_arg5) = _
  after_results_simp
  rw [w2_arg5, w1_arg5]

/-! ## After pass 1 -/

/-- The first layer's output. -/
theorem w4_v49 : W4 m ρ c (Proc.devRef .tc main_v49) = val_main_v54 (F := Ideal) (m ((c : Thread nD τ).loc main_arg0)) (m ((c : Thread nD τ).loc main_arg1)) (m ((c : Thread nD τ).loc main_arg2)) (m ((c : Thread nD τ).loc main_arg3)) := by
  refine (W4_arr m ρ c 4).trans ?_
  rw [Combine1.final (V3 m ρ) c]
  show combineRelu (W3 m ρ c (Proc.devRef .tc main_v47)) (W3 m ρ c (Proc.devRef .tc main_v34)) (W3 m ρ c (Proc.devRef .tc main_v33)) (W3 m ρ c (Proc.devRef .tc main_v48)) = _
  rw [w3_v47, w3_v34, w3_v33, w3_v48, layer1_out]

/-- The coefficient column is one of pass 1's own inputs: a pass leaves the arrays it only reads as it found them. -/
theorem w4_v33 : W4 m ρ c (Proc.devRef .tc main_v33) = asCol (val_main_v46 (F := Ideal) (m ((c : Thread nD τ).loc main_arg1))) :=
  ((W4_arr m ρ c 2).trans (((dat1 (V3 m ρ) c).arrAt_in 2 rfl _).trans (A_eq1 (V3 m ρ) c 2))).trans (w3_v33 m ρ c)
theorem w4_v1 : W4 m ρ c (Proc.devRef .tc main_v1) = val_main_v1 (F := Ideal) (m ((c : Thread nD τ).loc main_arg1)) := (W4_of_ne m ρ c main_v1 (by decide)).trans (w3_v1 m ρ c)
theorem w4_v3 : W4 m ρ c (Proc.devRef .tc main_v3) = val_main_v3 (F := Ideal) (m ((c : Thread nD τ).loc main_arg1)) := (W4_of_ne m ρ c main_v3 (by decide)).trans (w3_v3 m ρ c)
theorem w4_v30 : W4 m ρ c (Proc.devRef .tc main_v30) = val_main_v31 (F := Ideal) (m ((c : Thread nD τ).loc main_arg1)) := (W4_of_ne m ρ c main_v30 (by decide)).trans (w3_v30 m ρ c)
theorem w4_arg4 : W4 m ρ c (Proc.devRef .tc main_arg4) = (m ((c : Thread nD τ).loc main_arg4)) := (W4_of_ne m ρ c main_arg4 (by decide)).trans (w3_arg4 m ρ c)
theorem w4_arg5 : W4 m ρ c (Proc.devRef .tc main_arg5) = (m ((c : Thread nD τ).loc main_arg5)) := (W4_of_ne m ρ c main_arg5 (by decide)).trans (w3_arg5 m ρ c)

/-! ## After pass 2 -/

/-- The second product. -/
theorem w5_v50 : W5 m ρ c (Proc.devRef .tc main_v50) = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ?_
  rw [Linear2.final (V4 m ρ) c]
  show linear (W4 m ρ c (Proc.devRef .tc main_v49)) (W4 m ρ c (Proc.devRef .tc main_arg4)) = _
  rw [w4_v49, w4_arg4, layer2_linear]

theorem w5_v33 : W5 m ρ c (Proc.devRef .tc main_v33) = asCol (val_main_v46 (F := Ideal) (m ((c : Thread nD τ).loc main_arg1))) := (W5_of_ne m ρ c main_v33 (by decide)).trans (w4_v33 m ρ c)
theorem w5_v1 : W5 m ρ c (Proc.devRef .tc main_v1) = val_main_v1 (F := Ideal) (m ((c : Thread nD τ).loc main_arg1)) := (W5_of_ne m ρ c main_v1 (by decide)).trans (w4_v1 m ρ c)
theorem w5_v3 : W5 m ρ c (Proc.devRef .tc main_v3) = val_main_v3 (F := Ideal) (m ((c : Thread nD τ).loc main_arg1)) := (W5_of_ne m ρ c main_v3 (by decide)).trans (w4_v3 m ρ c)
theorem w5_v30 : W5 m ρ c (Proc.devRef .tc main_v30) = val_main_v31 (F := Ideal) (m ((c : Thread nD τ).loc main_arg1)) := (W5_of_ne m ρ c main_v30 (by decide)).trans (w4_v30 m ρ c)
theorem w5_arg5 : W5 m ρ c (Proc.devRef .tc main_arg5) = (m ((c : Thread nD τ).loc main_arg5)) := (W5_of_ne m ρ c main_arg5 (by decide)).trans (w4_arg5 m ρ c)

/-! ## Before pass 3 -/

/-- The second neighbour sum, of the second product, with the same edge normalisation. -/
theorem w6_v63 : W6 m ρ c (Proc.devRef .tc main_v63) = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) (Proc.devRef .tc main_v63) = _
  after_results_simp
  rw [w5_v50, w5_v1, w5_v3, w5_v30, ← norm_again]
  rfl
/-- The second bias as a row. -/
theorem w6_v64 : W6 m ρ c (Proc.devRef .tc main_v64) = asRow (m ((c : Thread nD τ).loc main_arg5)) := by
  show StableHlo.after hostOps3 (W5 m ρ c) (Proc.devRef .tc main_v64) = _
  after_results_simp
  rw [w5_arg5]
  exact row_of_reshape _ _
theorem w6_v50 : W6 m ρ c (Proc.devRef .tc main_v50) = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) (Proc.devRef .tc main_v50) = _
  after_results_simp
  exact w5_v50 m ρ c
theorem w6_v33 : W6 m ρ c (Proc.devRef .tc main_v33) = asCol (val_main_v46 (F := Ideal) (m ((c : Thread nD τ).loc main_arg1))) := by
  show StableHlo.after hostOps3 (W5 m ρ c) (Proc.devRef .tc main_v33) = _
  after_results_simp
  exact w5_v33 m ρ c

/-! ## After pass 3: the result -/

/-- THE RESULT BUFFER at the return holds the reference's result of the six arguments. -/
theorem result_eq : W7 m ρ c (Proc.devRef .tc main_v65) = val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 4).trans ?_
  rw [Combine3.final (V6 m ρ) c]
  show combine (W6 m ρ c (Proc.devRef .tc main_v63)) (W6 m ρ c (Proc.devRef .tc main_v50)) (W6 m ρ c (Proc.devRef .tc main_v33)) (W6 m ρ c (Proc.devRef .tc main_v64)) = _
  rw [w6_v63, w6_v50, w6_v33, w6_v64, layer2_out]

end Cert.KernelIdeal.Boundaries

end
-- ==== Proof.lean ====
/-
  A two-layer graph convolution, tiled kernel against whole-array reference, over the extended reals.

  Each layer is `out = (agg + h · d) + b` with `h = x · W` the feature transform, `agg` the neighbour sum (the rows of
  `h` gathered at the edges' sources, scaled by `deg[src]^(-1/2) · deg[dst]^(-1/2)`, added up at the destinations),
  `d = 1 / deg` the node's own coefficient and `b` the bias; the first layer's output goes through the maximum with
  zero and feeds the second. The degree, its two coefficient vectors, the gather and the scatter-add are the same host
  operations in both programs. The kernel differs in four places only: each `x · W` and each `(agg + h · d) + b` runs
  as a pass over 25 blocks of 4000 rows. A block of the product is the product of the block's rows with `W` (into a zero
  accumulator, the operands narrowed first: neither changes an extended real), and a block of the entrywise pass is the
  entrywise pass of the blocks; the blocks tile the rows. So each pass leaves the very array the reference's
  whole-array operation computes, and the result buffers agree.

  No law of arithmetic is used beyond `0 + s = s`, so the finiteness of the inputs is never opened, and the edge
  indices may be anything: whatever a gather or a scatter-add does with an index, both programs do it to equal operands.
-/
import proofs.«137894_j730144441187_1_alg».proof.Defs
import proofs.«137894_j730144441187_1_alg».proof.Proof.Gen.Kernel
import proofs.«137894_j730144441187_1_alg».proof.Proof.Gen.Kernel.Skeleton
import proofs.«137894_j730144441187_1_alg».proof.Proof.Gen.Kernel.Launch
import proofs.«137894_j730144441187_1_alg».proof.Proof.Gen.Kernel.Points
import proofs.«137894_j730144441187_1_alg».proof.Proof.Gen.Kernel.Frame
import proofs.«137894_j730144441187_1_alg».proof.Proof.Gen.KernelIdeal
import proofs.«137894_j730144441187_1_alg».proof.Proof.Gen.KernelIdeal.Skeleton
import proofs.«137894_j730144441187_1_alg».proof.Proof.Gen.KernelIdeal.Launch
import proofs.«137894_j730144441187_1_alg».proof.Proof.Gen.KernelIdeal.Points
import proofs.«137894_j730144441187_1_alg».proof.Proof.Gen.KernelIdeal.Frame
import proofs.«137894_j730144441187_1_alg».proof.Proof.Gen.ReferenceIdeal
import proofs.«137894_j730144441187_1_alg».proof.Proof.Gen.Pre_finite_inputs
import proofs.«137894_j730144441187_1_alg».proof.Proof.Gen.ReferenceIdeal.Run
import proofs.«137894_j730144441187_1_alg».proof.Proof.Gen.ReferenceIdeal.Read
import proofs.«137894_j730144441187_1_alg».proof.Proof.ResultRun
import proofs.«137894_j730144441187_1_alg».proof.Proof.Boundaries
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: it runs to its end with the arguments untouched. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel's text was rewritten when it was read over the extended reals. -/
theorem preserves : Cert.preserves_Kernel_KernelIdeal := trivial

/-- From memories that agree on the six arguments both programs end with the same result array: the kernel's result
    buffer holds the last boundary's contents, which is the reference's result of the arguments. -/
theorem algebraic : Cert.algebraic_KernelIdeal_ReferenceIdeal := by
  intro m ρ m' ρ' _ hagree
  refine ⟨fun c => Cert.KernelIdeal.Gen.W7 m ρ c (Proc.devRef .tc Cert.KernelIdeal.main_v65),
    Cert.KernelIdeal.ResultRun.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v104_eq, (hagree c).1, (hagree c).2.1, (hagree c).2.2.1, (hagree c).2.2.2.1,
    (hagree c).2.2.2.2.1, (hagree c).2.2.2.2.2]
  exact (Cert.KernelIdeal.Boundaries.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
